-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x192x128x128 : Shape := ⟨4, ![8, 192, 128, 128]⟩
abbrev S192x9 : Shape := ⟨2, ![192, 9]⟩
abbrev S192 : Shape := ⟨1, ![192]⟩
abbrev S_ : Shape := ⟨0, ![]⟩

class Facts : Prop where
  bcast_S_S8x192x128x128 : S_.BroadcastsInDim S8x192x128x128 (![] : Fin 0 → Fin S8x192x128x128.rank)
  reducesTo_S8x192x128x128_S_d0_1_2_3 : S8x192x128x128.ReducesTo [0, 1, 2, 3] S_
  h_S_ : 0 < S_.numel
  bcast_S_S192x9 : S_.BroadcastsInDim S192x9 (![] : Fin 0 → Fin S192x9.rank)
  reducesTo_S192x9_S_d0_1 : S192x9.ReducesTo [0, 1] S_
  bcast_S_S192 : S_.BroadcastsInDim S192 (![] : Fin 0 → Fin S192.rank)
  reducesTo_S192_S_d0 : S192.ReducesTo [0] S_

variable [Facts]

def fn_part1 {F : FTy → Type} [FloatOps F] (main_v13 : IVec S_ 1) (main_v16 : IVec S192 1) : IVec S_ 1 :=
  let main_c_5 : IVec S_ 1 := constantI S_ 1 1#1
  let main_v17 : IVec S_ 1 := (fun x v => Host.reduce IntOp.andi x v reducesTo_S192_S_d0 h_S_) main_v16 main_c_5
  let main_v18 : IVec S_ 1 := andi main_v13 main_v17
  main_v18

def fn {F : FTy → Type} [FloatOps F] (main_arg0 : FVec F S8x192x128x128 .f32) (main_arg1 : FVec F S192x9 .f32) (main_arg2 : FVec F S192 .f32) (main_arg3 : FVec F S192 .f32) : IVec S_ 1 :=
  let main_v0 : FVec F S8x192x128x128 .f32 := Host.absf main_arg0
  let main_cst : FVec F S_ .f32 := constant S_ .f32 0x7F800000#32
  let main_v1 : FVec F S8x192x128x128 .f32 := broadcastInDim S8x192x128x128 ![] bcast_S_S8x192x128x128 main_cst
  let main_v2 : IVec S8x192x128x128 1 := cmpf .olt main_v0 main_v1
  let main_c : IVec S_ 1 := constantI S_ 1 1#1
  let main_v3 : IVec S_ 1 := (fun x v => Host.reduce IntOp.andi x v reducesTo_S8x192x128x128_S_d0_1_2_3 h_S_) main_v2 main_c
  let main_v4 : FVec F S192x9 .f32 := Host.absf main_arg1
  let main_cst_0 : FVec F S_ .f32 := constant S_ .f32 0x7F800000#32
  let main_v5 : FVec F S192x9 .f32 := broadcastInDim S192x9 ![] bcast_S_S192x9 main_cst_0
  let main_v6 : IVec S192x9 1 := cmpf .olt main_v4 main_v5
  let main_c_1 : IVec S_ 1 := constantI S_ 1 1#1
  let main_v7 : IVec S_ 1 := (fun x v => Host.reduce IntOp.andi x v reducesTo_S192x9_S_d0_1 h_S_) main_v6 main_c_1
  let main_v8 : IVec S_ 1 := andi main_v3 main_v7
  let main_v9 : FVec F S192 .f32 := Host.absf main_arg2
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S192 .f32 := Host.absf main_arg3
  let main_cst_4 : FVec F S_ .f32 := constant S_ .f32 0x7F800000#32
  let main_v15 : FVec F S192 .f32 := broadcastInDim S192 ![] bcast_S_S192 main_cst_4
  let main_v16 : IVec S192 1 := cmpf .olt main_v14 main_v15
  fn_part1 (F := F) main_v13 main_v16
-- ==== Kernel.lean ====
abbrev S8x192x128x128 : Shape := ⟨4, ![8, 192, 128, 128]⟩
abbrev S192x9 : Shape := ⟨2, ![192, 9]⟩
abbrev S192 : Shape := ⟨1, ![192]⟩
abbrev S192x1 : Shape := ⟨2, ![192, 1]⟩
abbrev S1x48x128x128 : Shape := ⟨4, ![1, 48, 128, 128]⟩
abbrev S48x9 : Shape := ⟨2, ![48, 9]⟩
abbrev S48x1 : Shape := ⟨2, ![48, 1]⟩
abbrev S48x128x128 : Shape := ⟨3, ![48, 128, 128]⟩
abbrev S48 : Shape := ⟨1, ![48]⟩
abbrev S48x1x1 : Shape := ⟨3, ![48, 1, 1]⟩
abbrev S48x128x1 : Shape := ⟨3, ![48, 128, 1]⟩
abbrev S48x128x130 : Shape := ⟨3, ![48, 128, 130]⟩
abbrev S48x1x130 : Shape := ⟨3, ![48, 1, 130]⟩
abbrev S48x130x130 : Shape := ⟨3, ![48, 130, 130]⟩

abbrev nBuf : Space → Nat
  | .hbm => 7
  | .vmem => 10
  | .smem => 0
  | _ => 0

abbrev bufTy : (tb : Table) → Fin (tcTables nBuf tb) → BufTy
  | .hbm, ⟨0, _⟩ => ⟨S8x192x128x128, .f32⟩
  | .hbm, ⟨1, _⟩ => ⟨S192x9, .f32⟩
  | .hbm, ⟨2, _⟩ => ⟨S192, .f32⟩
  | .hbm, ⟨3, _⟩ => ⟨S192, .f32⟩
  | .hbm, ⟨4, _⟩ => ⟨S192x1, .f32⟩
  | .hbm, ⟨5, _⟩ => ⟨S192x1, .f32⟩
  | .hbm, ⟨6, _⟩ => ⟨S8x192x128x128, .f32⟩
  | .local _ .vmem, ⟨0, _⟩ => ⟨S1x48x128x128, .f32⟩
  | .local _ .vmem, ⟨1, _⟩ => ⟨S1x48x128x128, .f32⟩
  | .local _ .vmem, ⟨2, _⟩ => ⟨S48x9, .f32⟩
  | .local _ .vmem, ⟨3, _⟩ => ⟨S48x9, .f32⟩
  | .local _ .vmem, ⟨4, _⟩ => ⟨S48x1, .f32⟩
  | .local _ .vmem, ⟨5, _⟩ => ⟨S48x1, .f32⟩
  | .local _ .vmem, ⟨6, _⟩ => ⟨S48x1, .f32⟩
  | .local _ .vmem, ⟨7, _⟩ => ⟨S48x1, .f32⟩
  | .local _ .vmem, ⟨8, _⟩ => ⟨S1x48x128x128, .f32⟩
  | .local _ .vmem, ⟨9, _⟩ => ⟨S1x48x128x128, .f32⟩
  | _, _ => ⟨S8x192x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x48x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S48x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S48x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S48x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x48x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S192_S192x1 : S192.ShapeCasts S192x1
  inb_S1x48x128x128_S1x48x128x128_0_0_0_0 : ∀ a, (![0, 0, 0, 0] : Fin 4 → Nat) a + S1x48x128x128.size a ≤ S1x48x128x128.size a
  h_S1x48x128x128 : 0 < S1x48x128x128.numel
  shapeCasts_S1x48x128x128_S48x128x128 : S1x48x128x128.ShapeCasts S48x128x128
  inb_S48x1_S48x1_0_0 : ∀ a, (![0, 0] : Fin 2 → Nat) a + S48x1.size a ≤ S48x1.size a
  h_S48x1 : 0 < S48x1.numel
  shapeCasts_S48x1_S48 : S48x1.ShapeCasts S48
  shapeCasts_S48_S48x1x1 : S48.ShapeCasts S48x1x1
  broadcasts_S48x1x1_S48x128x128 : S48x1x1.Broadcasts S48x128x128
  concatenates_S48x128x1_S48x128x128_S48x128x1_S48x128x130_d2 : Shape.Concatenates [S48x128x1, S48x128x128, S48x128x1] S48x128x130 2
  concatenates_S48x1x130_S48x128x130_S48x1x130_S48x130x130_d1 : Shape.Concatenates [S48x1x130, S48x128x130, S48x1x130] S48x130x130 1
  slices_S48x130x130_o0_0_0_S48x128x128 : S48x130x130.Slices ![0, 0, 0] S48x128x128
  inb_S48x9_S48x1_0_0 : ∀ a, (![0, 0] : Fin 2 → Nat) a + S48x1.size a ≤ S48x9.size a
  slices_S48x130x130_o0_0_1_S48x128x128 : S48x130x130.Slices ![0, 0, 1] S48x128x128
  inb_S48x9_S48x1_0_1 : ∀ a, (![0, 1] : Fin 2 → Nat) a + S48x1.size a ≤ S48x9.size a
  slices_S48x130x130_o0_0_2_S48x128x128 : S48x130x130.Slices ![0, 0, 2] S48x128x128
  inb_S48x9_S48x1_0_2 : ∀ a, (![0, 2] : Fin 2 → Nat) a + S48x1.size a ≤ S48x9.size a
  slices_S48x130x130_o0_1_0_S48x128x128 : S48x130x130.Slices ![0, 1, 0] S48x128x128
  inb_S48x9_S48x1_0_3 : ∀ a, (![0, 3] : Fin 2 → Nat) a + S48x1.size a ≤ S48x9.size a
  slices_S48x130x130_o0_1_1_S48x128x128 : S48x130x130.Slices ![0, 1, 1] S48x128x128
  inb_S48x9_S48x1_0_4 : ∀ a, (![0, 4] : Fin 2 → Nat) a + S48x1.size a ≤ S48x9.size a
  slices_S48x130x130_o0_1_2_S48x128x128 : S48x130x130.Slices ![0, 1, 2] S48x128x128
  inb_S48x9_S48x1_0_5 : ∀ a, (![0, 5] : Fin 2 → Nat) a + S48x1.size a ≤ S48x9.size a
  slices_S48x130x130_o0_2_0_S48x128x128 : S48x130x130.Slices ![0, 2, 0] S48x128x128
  inb_S48x9_S48x1_0_6 : ∀ a, (![0, 6] : Fin 2 → Nat) a + S48x1.size a ≤ S48x9.size a
  slices_S48x130x130_o0_2_1_S48x128x128 : S48x130x130.Slices ![0, 2, 1] S48x128x128
  inb_S48x9_S48x1_0_7 : ∀ a, (![0, 7] : Fin 2 → Nat) a + S48x1.size a ≤ S48x9.size a
  slices_S48x130x130_o0_2_2_S48x128x128 : S48x130x130.Slices ![0, 2, 2] S48x128x128
  inb_S48x9_S48x1_0_8 : ∀ a, (![0, 8] : Fin 2 → Nat) a + S48x1.size a ≤ S48x9.size a
  shapeCasts_S48x128x128_S1x48x128x128 : S48x128x128.ShapeCasts S1x48x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x48x128x128.size a ≤ S8x192x128x128.size a
  hwx0_0 : ∀ i : grid0.Coords, EltTy.bits .f32 = 32 ∨ (Rect.block (s := S8x192x128x128) S1x48x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S48x9.size a ≤ S192x9.size a
  hwx0_1 : ∀ i : grid0.Coords, EltTy.bits .f32 = 32 ∨ (Rect.block (s := S192x9) S48x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S48x1.size a ≤ S192x1.size a
  hwx0_2 : ∀ i : grid0.Coords, EltTy.bits .f32 = 32 ∨ (Rect.block (s := S192x1) S48x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S48x1.size a ≤ S192x1.size a
  hwx0_3 : ∀ i : grid0.Coords, EltTy.bits .f32 = 32 ∨ (Rect.block (s := S192x1) S48x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x48x128x128.size a ≤ S8x192x128x128.size a
  hwx0_4 : ∀ i : grid0.Coords, EltTy.bits .f32 = 32 ∨ (Rect.block (s := S8x192x128x128) S1x48x128x128.size (cc0_transform_4 i) (hinb0_4 i)).WholeWords (EltTy.packing .f32)

variable [Facts₀]

abbrev win0_0 : Pipeline.Window sig grid0 :=
  Pipeline.Window.ofSpec (Memref.whole main_arg0) S1x48x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S48x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S48x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S48x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x48x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x192x128x128 : Shape := ⟨4, ![8, 192, 128, 128]⟩
abbrev S192x9 : Shape := ⟨2, ![192, 9]⟩
abbrev S192 : Shape := ⟨1, ![192]⟩
abbrev S_ : Shape := ⟨0, ![]⟩
abbrev S8x192x130x130 : Shape := ⟨4, ![8, 192, 130, 130]⟩
abbrev S8x192x1x128x128 : Shape := ⟨5, ![8, 192, 1, 128, 128]⟩
abbrev S8x192x9x128x128 : Shape := ⟨5, ![8, 192, 9, 128, 128]⟩
abbrev S1x192x1x1 : Shape := ⟨4, ![1, 192, 1, 1]⟩
abbrev S1x192x9x1x1 : Shape := ⟨5, ![1, 192, 9, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S8x192x128x128, .f32⟩
  | .hbm, ⟨1, _⟩ => ⟨S192x9, .f32⟩
  | .hbm, ⟨2, _⟩ => ⟨S192, .f32⟩
  | .hbm, ⟨3, _⟩ => ⟨S192, .f32⟩
  | .hbm, ⟨4, _⟩ => ⟨S_, .i32⟩
  | .hbm, ⟨5, _⟩ => ⟨S_, .f32⟩
  | .hbm, ⟨6, _⟩ => ⟨S8x192x130x130, .f32⟩
  | .hbm, ⟨7, _⟩ => ⟨S8x192x128x128, .f32⟩
  | .hbm, ⟨8, _⟩ => ⟨S8x192x128x128, .f32⟩
  | .hbm, ⟨9, _⟩ => ⟨S8x192x128x128, .f32⟩
  | .hbm, ⟨10, _⟩ => ⟨S8x192x128x128, .f32⟩
  | .hbm, ⟨11, _⟩ => ⟨S8x192x128x128, .f32⟩
  | .hbm, ⟨12, _⟩ => ⟨S8x192x128x128, .f32⟩
  | .hbm, ⟨13, _⟩ => ⟨S8x192x128x128, .f32⟩
  | .hbm, ⟨14, _⟩ => ⟨S8x192x128x128, .f32⟩
  | .hbm, ⟨15, _⟩ => ⟨S8x192x128x128, .f32⟩
  | .hbm, ⟨16, _⟩ => ⟨S8x192x1x128x128, .f32⟩
  | .hbm, ⟨17, _⟩ => ⟨S8x192x1x128x128, .f32⟩
  | .hbm, ⟨18, _⟩ => ⟨S8x192x1x128x128, .f32⟩
  | .hbm, ⟨19, _⟩ => ⟨S8x192x1x128x128, .f32⟩
  | .hbm, ⟨20, _⟩ => ⟨S8x192x1x128x128, .f32⟩
  | .hbm, ⟨21, _⟩ => ⟨S8x192x1x128x128, .f32⟩
  | .hbm, ⟨22, _⟩ => ⟨S8x192x1x128x128, .f32⟩
  | .hbm, ⟨23, _⟩ => ⟨S8x192x1x128x128, .f32⟩
  | .hbm, ⟨24, _⟩ => ⟨S8x192x1x128x128, .f32⟩
  | .hbm, ⟨25, _⟩ => ⟨S8x192x9x128x128, .f32⟩
  | .hbm, ⟨26, _⟩ => ⟨S1x192x1x1, .f32⟩
  | .hbm, ⟨27, _⟩ => ⟨S8x192x128x128, .f32⟩
  | .hbm, ⟨28, _⟩ => ⟨S8x192x128x128, .f32⟩
  | .hbm, ⟨29, _⟩ => ⟨S1x192x1x1, .f32⟩
  | .hbm, ⟨30, _⟩ => ⟨S8x192x128x128, .f32⟩
  | .hbm, ⟨31, _⟩ => ⟨S8x192x128x128, .f32⟩
  | .hbm, ⟨32, _⟩ => ⟨S8x192x128x128, .f32⟩
  | .hbm, ⟨33, _⟩ => ⟨S8x192x128x128, .f32⟩
  | .hbm, ⟨34, _⟩ => ⟨S_, .f32⟩
  | .hbm, ⟨35, _⟩ => ⟨S8x192x128x128, .f32⟩
  | .hbm, ⟨36, _⟩ => ⟨S8x192x128x128, .f32⟩
  | .hbm, ⟨37, _⟩ => ⟨S_, .f32⟩
  | .hbm, ⟨38, _⟩ => ⟨S8x192x128x128, .f32⟩
  | .hbm, ⟨39, _⟩ => ⟨S8x192x128x128, .f32⟩
  | .hbm, ⟨40, _⟩ => ⟨S8x192x1x128x128, .f32⟩
  | .hbm, ⟨41, _⟩ => ⟨S1x192x9x1x1, .f32⟩
  | .hbm, ⟨42, _⟩ => ⟨S8x192x9x128x128, .f32⟩
  | .hbm, ⟨43, _⟩ => ⟨S8x192x9x128x128, .f32⟩
  | .hbm, ⟨44, _⟩ => ⟨S8x192x9x128x128, .f32⟩
  | .hbm, ⟨45, _⟩ => ⟨S8x192x9x128x128, .f32⟩
  | .hbm, ⟨46, _⟩ => ⟨S_, .f32⟩
  | .hbm, ⟨47, _⟩ => ⟨S8x192x128x128, .f32⟩
  | _, _ => ⟨S8x192x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_1 : Ref sig .tc := ⟨.hbm, 46, rfl⟩
abbrev main_v38 : Ref sig .tc := ⟨.hbm, 47, rfl⟩

abbrev nD : Nat := 1
abbrev τ : Topo := Topo.v7x

variable {F : FTy → Type} [FloatOps F]

class Facts₀ : Prop where
  pads_S8x192x128x128_S8x192x130x130_000_000_110_110 : S8x192x128x128.Pads (![0, 0, 1, 1] : Fin 4 → Nat) ![0, 0, 1, 1] ![0, 0, 0, 0] S8x192x130x130
  h_S_ : 0 < S_.numel
  slices_S8x192x130x130_S8x192x128x128_0_0_0_0 : S8x192x130x130.Slices ![0, 0, 0, 0] S8x192x128x128
  slices_S8x192x130x130_S8x192x128x128_0_0_0_1 : S8x192x130x130.Slices ![0, 0, 0, 1] S8x192x128x128
  slices_S8x192x130x130_S8x192x128x128_0_0_0_2 : S8x192x130x130.Slices ![0, 0, 0, 2] S8x192x128x128
  slices_S8x192x130x130_S8x192x128x128_0_0_1_0 : S8x192x130x130.Slices ![0, 0, 1, 0] S8x192x128x128
  slices_S8x192x130x130_S8x192x128x128_0_0_1_1 : S8x192x130x130.Slices ![0, 0, 1, 1] S8x192x128x128
  slices_S8x192x130x130_S8x192x128x128_0_0_1_2 : S8x192x130x130.Slices ![0, 0, 1, 2] S8x192x128x128
  slices_S8x192x130x130_S8x192x128x128_0_0_2_0 : S8x192x130x130.Slices ![0, 0, 2, 0] S8x192x128x128
  slices_S8x192x130x130_S8x192x128x128_0_0_2_1 : S8x192x130x130.Slices ![0, 0, 2, 1] S8x192x128x128
  slices_S8x192x130x130_S8x192x128x128_0_0_2_2 : S8x192x130x130.Slices ![0, 0, 2, 2] S8x192x128x128
  bcast_S8x192x128x128_S8x192x1x128x128_0_1_3_4 : S8x192x128x128.BroadcastsInDim S8x192x1x128x128 (![0, 1, 3, 4] : Fin 4 → Fin S8x192x1x128x128.rank)
  concatenates_S8x192x1x128x128_S8x192x1x128x128_S8x192x1x128x128_S8x192x1x128x128_S8x192x1x128x128_S8x192x1x128x128_S8x192x1x128x128_S8x192x1x128x128_S8x192x1x128x128_S8x192x9x128x128_d2 : Shape.Concatenates [S8x192x1x128x128, S8x192x1x128x128, S8x192x1x128x128, S8x192x1x128x128, S8x192x1x128x128, S8x192x1x128x128, S8x192x1x128x128, S8x192x1x128x128, S8x192x1x128x128] S8x192x9x128x128 2
  bcast_S192_S1x192x1x1_1 : S192.BroadcastsInDim S1x192x1x1 (![1] : Fin 1 → Fin S1x192x1x1.rank)
  bcast_S1x192x1x1_S8x192x128x128_0_1_2_3 : S1x192x1x1.BroadcastsInDim S8x192x128x128 (![0, 1, 2, 3] : Fin 4 → Fin S8x192x128x128.rank)
  bcast_S_S8x192x128x128 : S_.BroadcastsInDim S8x192x128x128 (![] : Fin 0 → Fin S8x192x128x128.rank)
  bcast_S192x9_S1x192x9x1x1_1_2 : S192x9.BroadcastsInDim S1x192x9x1x1 (![1, 2] : Fin 2 → Fin S1x192x9x1x1.rank)
  bcast_S8x192x1x128x128_S8x192x9x128x128_0_1_2_3_4 : S8x192x1x128x128.BroadcastsInDim S8x192x9x128x128 (![0, 1, 2, 3, 4] : Fin 5 → Fin S8x192x9x128x128.rank)
  bcast_S1x192x9x1x1_S8x192x9x128x128_0_1_2_3_4 : S1x192x9x1x1.BroadcastsInDim S8x192x9x128x128 (![0, 1, 2, 3, 4] : Fin 5 → Fin S8x192x9x128x128.rank)
  reducesTo_S8x192x9x128x128_S8x192x128x128_d2 : S8x192x9x128x128.ReducesTo [2] S8x192x128x128

variable [Facts₀]

class Facts : Prop extends Facts₀ where

variable [Facts]
-- ==== Proof.MaxPlusSpec.lean ====
/-
  The max-plus morphological convolution, as one function of the four argument arrays.

  For an image `x` of shape [8, 192, 128, 128], taps `k` of shape [192, 9] and a per-channel gate `(gw, gb)`,
  the result at `(b, c, h, w)` is the maximum over the nine taps `(i, j)` of a 3 x 3 window of

      x̄[b, c, h + i, w + j]  +  σ(x[b, c, h, w] · gw[c] + gb[c]) · k[c, 3 i + j]

  where `x̄[b, c]` is the plane `x[b, c]` with a border of one zero on each side (so it is read at framed
  coordinates in `[0, 130)`), and `σ t = 1 / (1 + e^(-t))`. Everything is on the extended reals: sums, products
  and maxima are those of `EReal`; no law that needs finiteness is used anywhere.
  Also here: a fold of a commutative associative operation over nine values as a left-nested chain.
-/
import Idealize.ShloMosaic.PureOps.Ideal
import Idealize.ShloMosaic.PureOps.Ideal.Laws
import Idealize.ShloMosaic.Lib.ValueIdx

noncomputable section

namespace Cert.MaxPlus

open Idealize.ShloMosaic Idealize.ShloMosaic.ValueIdx

/-! ## Nine values joined left to right -/

/-- `f` over nine values, nested to the left: `f (… (f (f (g 0) (g 1)) (g 2)) …) (g 8)`. -/
def chain9 {α : Type} (f : α → α → α) (g : Fin 9 → α) : α :=
  f (f (f (f (f (f (f (f (g 0) (g 1)) (g 2)) (g 3)) (g 4)) (g 5)) (g 6)) (g 7)) (g 8)

/-- A fold over `Fin 9` of a commutative, associative `f` is the left-nested chain, joined to the initial value. -/
theorem fold_univ_fin9 {α : Type} (f : α → α → α) [Std.Commutative f] [Std.Associative f] (b : α) (g : Fin 9 → α) :
    (Finset.univ : Finset (Fin 9)).fold f b g = f b (chain9 f g) := by
  simp only [Fin.univ_succ, Finset.fold_cons, Finset.fold_map, Finset.univ_unique, Finset.fold_singleton]
  show f (g 0) (f (g 1) (f (g 2) (f (g 3) (f (g 4) (f (g 5) (f (g 6) (f (g 7) (f (g 8) b)))))))) = _
  unfold chain9
  ac_rfl

/-- On the extended reals a maximum taken from `-∞` over nine values is the chain of their maxima. -/
theorem fold_max_bot_fin9 (g : Fin 9 → EReal) :
    (Finset.univ : Finset (Fin 9)).fold max ⊥ g = chain9 max g := by
  rw [fold_univ_fin9 (max : EReal → EReal → EReal) ⊥ g, max_eq_right bot_le]

/-! ## A plane framed by zeros -/

/-- A 128 x 128 plane with a border of one zero all round, read at framed coordinates `(r, s)`: inside
    `[1, 128]²` it is the plane one step up and left, and zero on the border (and beyond). -/
def border (p : Fin 128 → Fin 128 → EReal) (r s : Nat) : EReal :=
  if h : (1 ≤ r ∧ r ≤ 128) ∧ (1 ≤ s ∧ s ≤ 128) then p ⟨r - 1, by omega⟩ ⟨s - 1, by omega⟩ else 0

theorem border_congr (p : Fin 128 → Fin 128 → EReal) {r s r' s' : Nat} (hr : r = r') (hs : s = s') :
    border p r s = border p r' s' := by subst hr hs; rfl

/-- Inside, the framed plane is the plane. -/
theorem border_inside (p : Fin 128 → Fin 128 → EReal) (r s : Nat) (a : Fin 128) (b : Fin 128)
    (hr : r = a.val + 1) (hs : s = b.val + 1) : border p r s = p a b := by
  subst hr hs
  unfold border
  rw [dif_pos ⟨⟨by omega, by have := a.isLt; omega⟩, ⟨by omega, by have := b.isLt; omega⟩⟩]
  rfl

/-- Off the inside, it is zero. -/
theorem border_outside (p : Fin 128 → Fin 128 → EReal) (r s : Nat)
    (h : ¬((1 ≤ r ∧ r ≤ 128) ∧ (1 ≤ s ∧ s ≤ 128))) : border p r s = 0 := by
  unfold border; rw [dif_neg h]

/-! ## The scores and the result -/

/-- The gate: the logistic function of an affine map of the pixel. -/
def gate (v a d : EReal) : EReal := Ideal.logistic (v * a + d)

/-- Tap `t = 3 i + j`'s score at pixel `(h, w)` of a plane `p`, for a gate value `g` and the channel's nine
    weights `kr`: the framed plane `i` rows down and `j` columns right of the window's corner, plus the gate times
    the tap's weight. -/
def score (p : Fin 128 → Fin 128 → EReal) (g : EReal) (kr : Fin 9 → EReal) (h w : Fin 128) (t : Fin 9) : EReal :=
  border p (h.val + t.val / 3) (w.val + t.val % 3) + g * kr t

/-- The nine scores' maximum, written out tap by tap. -/
theorem chain9_score (p : Fin 128 → Fin 128 → EReal) (g : EReal) (kr : Fin 9 → EReal) (h w : Fin 128) :
    chain9 max (score p g kr h w)
      = max (max (max (max (max (max (max (max
          (border p (h.val + 0) (w.val + 0) + g * kr 0)
          (border p (h.val + 0) (w.val + 1) + g * kr 1))
          (border p (h.val + 0) (w.val + 2) + g * kr 2))
          (border p (h.val + 1) (w.val + 0) + g * kr 3))
          (border p (h.val + 1) (w.val + 1) + g * kr 4))
          (border p (h.val + 1) (w.val + 2) + g * kr 5))
          (border p (h.val + 2) (w.val + 0) + g * kr 6))
          (border p (h.val + 2) (w.val + 1) + g * kr 7))
          (border p (h.val + 2) (w.val + 2) + g * kr 8) := rfl

abbrev SX : Shape := ⟨4, ![8, 192, 128, 128]⟩
abbrev SK : Shape := ⟨2, ![192, 9]⟩
abbrev SG : Shape := ⟨1, ![192]⟩

/-- THE RESULT: at every pixel of every plane the maximum of the nine taps' scores. -/
def G (x : SX.Idx → EReal) (k : SK.Idx → EReal) (gw gb : SG.Idx → EReal) : SX.Idx → EReal :=
  fun y => chain9 max (score (fun h w => x (ix4 (y 0) (y 1) h w))
    (gate (x (ix4 (y 0) (y 1) (y 2) (y 3))) (gw (ix1 (y 1))) (gb (ix1 (y 1)))) (fun t => k (ix2 (y 1) t)) (y 2) (y 3))

theorem G_apply (x : SX.Idx → EReal) (k : SK.Idx → EReal) (gw gb : SG.Idx → EReal) (b : Fin 8) (c : Fin 192) (h w : Fin 128) :
    G x k gw gb (ix4 b c h w) = chain9 max (score (fun h w => x (ix4 b c h w))
      (gate (x (ix4 b c h w)) (gw (ix1 c)) (gb (ix1 c))) (fun t => k (ix2 c t)) h w) := rfl

end Cert.MaxPlus

end
-- ==== Proof.FramedPlane.lean ====
/-
  A plane of 128 x 128 values framed by a border of one value on each side, built as the kernel builds it: first a
  column of the border value is joined to the left and to the right of every row (the last axis grows from 128 to 130),
  then a row of it above and below (the middle axis grows from 128 to 130). Read at an index, each join picks the
  piece that holds the index's coordinate on the joined axis.
-/
import Idealize.ShloMosaic.Lib.Pipeline.Value
import Idealize.ShloMosaic.Lib.ValueIdx

noncomputable section

namespace Cert.MaxPlus

open Idealize.ShloMosaic Idealize.ShloMosaic.ValueIdx

variable {α : Type}

abbrev Tcol : Shape := ⟨3, ![48, 128, 1]⟩
abbrev Tin : Shape := ⟨3, ![48, 128, 128]⟩
abbrev Twide : Shape := ⟨3, ![48, 128, 130]⟩
abbrev Trow : Shape := ⟨3, ![48, 1, 130]⟩
abbrev Tfull : Shape := ⟨3, ![48, 130, 130]⟩

/-! ## Columns joined left and right -/

/-- Column 0 of the widened rows is the left border column. -/
theorem cols_left (z : Tcol.Idx → α) (v : Tin.Idx → α)
    (h : Shape.Concatenates ([(⟨Tcol, z⟩ : (s : Shape) × (s.Idx → α)), ⟨Tin, v⟩, ⟨Tcol, z⟩].map (·.1)) Twide 2)
    (c : Fin 48) (r : Fin 128) (s : Fin 130) (hs : s.val = 0) :
    concatenate Twide 2 [⟨Tcol, z⟩, ⟨Tin, v⟩, ⟨Tcol, z⟩] h (ix3 c r s) = z (ix3 c r 0) :=
  concatenate_apply_piece 2 _ h (ix3 c r s) 0 (by show 0 < 3; omega) Tcol z rfl rfl 0 rfl (ix3 c r 0)
    (fun b hb => match b with
      | ⟨0, _⟩ => rfl
      | ⟨1, _⟩ => rfl
      | ⟨2, _⟩ => absurd rfl hb)
    (by show 0 + 0 = s.val; omega)

/-- Columns 1 to 128 of the widened rows are the plane's columns 0 to 127. -/
theorem cols_mid (z : Tcol.Idx → α) (v : Tin.Idx → α)
    (h : Shape.Concatenates ([(⟨Tcol, z⟩ : (s : Shape) × (s.Idx → α)), ⟨Tin, v⟩, ⟨Tcol, z⟩].map (·.1)) Twide 2)
    (c : Fin 48) (r : Fin 128) (s : Fin 130) (q : Fin 128) (hs : s.val = q.val + 1) :
    concatenate Twide 2 [⟨Tcol, z⟩, ⟨Tin, v⟩, ⟨Tcol, z⟩] h (ix3 c r s) = v (ix3 c r q) :=
  concatenate_apply_piece 2 _ h (ix3 c r s) 1 (by show 1 < 3; omega) Tin v rfl rfl 1 rfl (ix3 c r q)
    (fun b hb => match b with
      | ⟨0, _⟩ => rfl
      | ⟨1, _⟩ => rfl
      | ⟨2, _⟩ => absurd rfl hb)
    (by show 1 + q.val = s.val; omega)

/-- Column 129 of the widened rows is the right border column. -/
theorem cols_right (z : Tcol.Idx → α) (v : Tin.Idx → α)
    (h : Shape.Concatenates ([(⟨Tcol, z⟩ : (s : Shape) × (s.Idx → α)), ⟨Tin, v⟩, ⟨Tcol, z⟩].map (·.1)) Twide 2)
    (c : Fin 48) (r : Fin 128) (s : Fin 130) (hs : s.val = 129) :
    concatenate Twide 2 [⟨Tcol, z⟩, ⟨Tin, v⟩, ⟨Tcol, z⟩] h (ix3 c r s) = z (ix3 c r 0) :=
  concatenate_apply_piece 2 _ h (ix3 c r s) 2 (by show 2 < 3; omega) Tcol z rfl rfl 129 rfl (ix3 c r 0)
    (fun b hb => match b with
      | ⟨0, _⟩ => rfl
      | ⟨1, _⟩ => rfl
      | ⟨2, _⟩ => absurd rfl hb)
    (by show 129 + 0 = s.val; omega)

/-! ## Rows joined above and below -/

/-- Row 0 of the framed plane is the upper border row. -/
theorem rows_top (z : Trow.Idx → α) (v : Twide.Idx → α)
    (h : Shape.Concatenates ([(⟨Trow, z⟩ : (s : Shape) × (s.Idx → α)), ⟨Twide, v⟩, ⟨Trow, z⟩].map (·.1)) Tfull 1)
    (c : Fin 48) (r : Fin 130) (s : Fin 130) (hr : r.val = 0) :
    concatenate Tfull 1 [⟨Trow, z⟩, ⟨Twide, v⟩, ⟨Trow, z⟩] h (ix3 c r s) = z (ix3 c 0 s) :=
  concatenate_apply_piece 1 _ h (ix3 c r s) 0 (by show 0 < 3; omega) Trow z rfl rfl 0 rfl (ix3 c 0 s)
    (fun b hb => match b with
      | ⟨0, _⟩ => rfl
      | ⟨1, _⟩ => absurd rfl hb
      | ⟨2, _⟩ => rfl)
    (by show 0 + 0 = r.val; omega)

/-- Rows 1 to 128 of the framed plane are the widened rows 0 to 127. -/
theorem rows_mid (z : Trow.Idx → α) (v : Twide.Idx → α)
    (h : Shape.Concatenates ([(⟨Trow, z⟩ : (s : Shape) × (s.Idx → α)), ⟨Twide, v⟩, ⟨Trow, z⟩].map (·.1)) Tfull 1)
    (c : Fin 48) (r : Fin 130) (s : Fin 130) (p : Fin 128) (hr : r.val = p.val + 1) :
    concatenate Tfull 1 [⟨Trow, z⟩, ⟨Twide, v⟩, ⟨Trow, z⟩] h (ix3 c r s) = v (ix3 c p s) :=
  concatenate_apply_piece 1 _ h (ix3 c r s) 1 (by show 1 < 3; omega) Twide v rfl rfl 1 rfl (ix3 c p s)
    (fun b hb => match b with
      | ⟨0, _⟩ => rfl
      | ⟨1, _⟩ => absurd rfl hb
      | ⟨2, _⟩ => rfl)
    (by show 1 + p.val = r.val; omega)

/-- Row 129 of the framed plane is the lower border row. -/
theorem rows_bottom (z : Trow.Idx → α) (v : Twide.Idx → α)
    (h : Shape.Concatenates ([(⟨Trow, z⟩ : (s : Shape) × (s.Idx → α)), ⟨Twide, v⟩, ⟨Trow, z⟩].map (·.1)) Tfull 1)
    (c : Fin 48) (r : Fin 130) (s : Fin 130) (hr : r.val = 129) :
    concatenate Tfull 1 [⟨Trow, z⟩, ⟨Twide, v⟩, ⟨Trow, z⟩] h (ix3 c r s) = z (ix3 c 0 s) :=
  concatenate_apply_piece 1 _ h (ix3 c r s) 2 (by show 2 < 3; omega) Trow z rfl rfl 129 rfl (ix3 c 0 s)
    (fun b hb => match b with
      | ⟨0, _⟩ => rfl
      | ⟨1, _⟩ => absurd rfl hb
      | ⟨2, _⟩ => rfl)
    (by show 129 + 0 = r.val; omega)

end Cert.MaxPlus

end
-- ==== Proof.KernelFramed.lean ====
/-
  The kernel's framed block. A block of the image is 48 planes of 128 x 128; the body joins a column of zeros to
  the left and right of every row and then a row of zeros above and below, so plane `c` of what it builds, read at
  framed coordinates `(r, s)` in `[0, 130)²`, is plane `c` of the block one step up and left inside `[1, 128]²` and
  zero on the border.
-/
import proofs.«131179_j28527172780064_1_alg».proof.Proof.Gen.KernelIdeal.Skeleton
import proofs.«131179_j28527172780064_1_alg».proof.Proof.MaxPlusSpec
import proofs.«131179_j28527172780064_1_alg».proof.Proof.FramedPlane
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Cert.MaxPlus Idealize.ShloMosaic Idealize.ShloMosaic.ValueIdx

/-- Dropping the block's leading unit axis: plane `c`, row `a`, column `b` of the block. -/
theorem planes_apply (P0 : Vec Ideal S1x48x128x128 .f32) (c : Fin 48) (a b : Fin 128) :
    k0_pay2 (F := Ideal) P0 (ix3 c a b) = P0 (ix4 0 c a b) := by
  unfold k0_pay2
  refine shapeCast_apply _ _ (ix3 c a b) (ix4 0 c a b) ?_
  rw [Shape.rowMajor_val_three, Shape.rowMajor_val_four]
  show ((0 * 48 + c.val) * 128 + a.val) * 128 + b.val = (c.val * 128 + a.val) * 128 + b.val
  omega

/-- The framed block at plane `c` and framed coordinates `(r, s)` is that plane of the block framed by zeros. -/
theorem framed_apply (P0 : Vec Ideal S1x48x128x128 .f32) (c : Fin 48) (r s : Fin 130) :
    k0_pay4 (F := Ideal) P0 (ix3 c r s) = border (fun a b => P0 (ix4 0 c a b)) r.val s.val := by
  have hr := r.isLt
  have hs := s.isLt
  unfold k0_pay4
  by_cases hrm : 1 ≤ r.val ∧ r.val ≤ 128
  · rw [rows_mid _ _ _ c r s ⟨r.val - 1, by omega⟩ (by show r.val = r.val - 1 + 1; omega)]
    by_cases hsm : 1 ≤ s.val ∧ s.val ≤ 128
    · rw [cols_mid _ _ _ c ⟨r.val - 1, by omega⟩ s ⟨s.val - 1, by omega⟩ (by show s.val = s.val - 1 + 1; omega),
        border_inside _ _ _ ⟨r.val - 1, by omega⟩ ⟨s.val - 1, by omega⟩ (by show r.val = r.val - 1 + 1; omega)
          (by show s.val = s.val - 1 + 1; omega)]
      exact planes_apply P0 c _ _
    · rw [border_outside _ _ _ (fun h => hsm h.2)]
      by_cases hs0 : s.val = 0
      · rw [cols_left _ _ _ c _ s hs0]
        show Ideal.ofBits .f32 0x00000000#32 = 0
        exact Ideal.ofBits_zero_f32
      · rw [cols_right _ _ _ c _ s (by omega)]
        show Ideal.ofBits .f32 0x00000000#32 = 0
        exact Ideal.ofBits_zero_f32
  · rw [border_outside _ _ _ (fun h => hrm h.1)]
    by_cases hr0 : r.val = 0
    · rw [rows_top _ _ _ c r s hr0]
      show Ideal.ofBits .f32 0x00000000#32 = 0
      exact Ideal.ofBits_zero_f32
    · rw [rows_bottom _ _ _ c r s (by omega)]
      show Ideal.ofBits .f32 0x00000000#32 = 0
      exact Ideal.ofBits_zero_f32

end Cert.KernelIdeal.Block

end
-- ==== Proof.KernelBlock.lean ====
/-
  One element of the block the body leaves. At plane `c`, pixel `(h, w)` of the output block the body's nine-fold
  maximum is the chain of the nine scores over plane `c` of the image block framed by zeros, with the gate computed
  from the pixel and row `c` of the two gate columns, and the weights row `c` of the tap block.
-/
import proofs.«131179_j28527172780064_1_alg».proof.Proof.KernelIdealValue
import proofs.«131179_j28527172780064_1_alg».proof.Proof.KernelFramed

noncomputable section

namespace Cert.KernelIdeal.Block

open Cert.KernelIdeal Cert.KernelIdeal.Gen Cert.KernelIdeal.ValueP Cert.MaxPlus
open Idealize.ShloMosaic Idealize.ShloMosaic.ValueIdx

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- A load of column `t` of the tap block, at row `c`: the block's entry `(c, t)`. -/
theorem ld_col (x1 : Vec Ideal S48x9 .f32) (off : Fin 2 → Nat) (inb : ∀ a, off a + S48x1.size a ≤ S48x9.size a)
    (t : Fin 9) (h0 : off 0 = 0) (h1 : off 1 = t.val) (c : Fin 48) (y : S48x1.Idx) (hy : y = ix2 c 0) :
    View.ld x1 (Rect.unit (s := S48x9) off S48x1.size inb) y = x1 (ix2 c t) := by
  subst hy
  show x1 ((Rect.unit (s := S48x9) off S48x1.size inb).idx (ix2 c 0)) = x1 (ix2 c t)
  refine congrArg x1 (funext fun a => Fin.ext ?_)
  match a with
  | ⟨0, _⟩ => show off 0 + 1 * c.val = c.val; omega
  | ⟨1, _⟩ => show off 1 + 1 * 0 = t.val; omega

/-- One tap's summand, over indices given by equations (so that it meets the generated block function, whose index
    maps are spelt per occurrence): the framed plane at the tap's offset, plus the gate times the tap's weight. -/
theorem tap_eq (x0 : Vec Ideal S1x48x128x128 .f32) (x1 : Vec Ideal S48x9 .f32) (x2 x3 : Vec Ideal S48x1 .f32)
    (c : Fin 48) (h w : Fin 128) (i j : Nat) (hi : i ≤ 2) (hj : j ≤ 2) (t : Fin 9)
    (I : S48x130x130.Idx) (I0 : S1x48x128x128.Idx) (Ia Ib Ic : S48x1.Idx)
    (off : Fin 2 → Nat) (inb : ∀ a, off a + S48x1.size a ≤ S48x9.size a)
    (hI : I = ix3 c (⟨h.val + i, by have := h.isLt; omega⟩ : Fin 130) (⟨w.val + j, by have := w.isLt; omega⟩ : Fin 130))
    (hI0 : I0 = ix4 0 c h w) (hIa : Ia = ix2 c 0) (hIb : Ib = ix2 c 0) (hIc : Ic = ix2 c 0)
    (h0 : off 0 = 0) (h1 : off 1 = t.val) :
    FloatOps.addf (k0_pay4 (F := Ideal) x0 I) (FloatOps.mulf (FloatOps.logistic (FloatOps.addf (FloatOps.mulf (x0 I0) (x2 Ia)) (x3 Ib)))
        (View.ld x1 (Rect.unit (s := S48x9) off S48x1.size inb) Ic))
      = border (fun p q => x0 (ix4 0 c p q)) (h.val + i) (w.val + j)
        + gate (x0 (ix4 0 c h w)) (x2 (ix2 c 0)) (x3 (ix2 c 0)) * x1 (ix2 c t) := by
  subst hI hI0 hIa hIb
  rw [ld_col x1 off inb t h0 h1 c Ic hIc, framed_apply]
  rfl

/-- THE BLOCK, element by element: the chain of the nine scores' maxima. -/
theorem block_apply (x0 : Vec Ideal S1x48x128x128 .f32) (x1 : Vec Ideal S48x9 .f32) (x2 x3 : Vec Ideal S48x1 .f32)
    (c : Fin 48) (h w : Fin 128) :
    out0_4 (F := Ideal) x0 x1 x2 x3 (ix4 0 c h w)
      = chain9 max (score (fun p q => x0 (ix4 0 c p q)) (gate (x0 (ix4 0 c h w)) (x2 (ix2 c 0)) (x3 (ix2 c 0)))
          (fun t => x1 (ix2 c t)) h w) := by
  unfold out0_4
  rw [canon4_eq, chain9_score]
  simp only [View.ld_unit_zero (S := S1x48x128x128) zeros4, View.ld_unit_zero (S := S48x1) zeros2]
  refine congrArg₂ max (congrArg₂ max (congrArg₂ max (congrArg₂ max (congrArg₂ max (congrArg₂ max (congrArg₂ max
    (congrArg₂ max ?_ ?_) ?_) ?_) ?_) ?_) ?_) ?_) ?_
  · exact tap_eq x0 x1 x2 x3 c h w 0 0 (by omega) (by omega) 0 _ _ _ _ _ _ _
      (by funext a; apply Fin.ext; fin_cases a <;> rfl) (by funext a; apply Fin.ext; fin_cases a <;> rfl)
      (by funext a; apply Fin.ext; fin_cases a <;> rfl) (by funext a; apply Fin.ext; fin_cases a <;> rfl)
      (by funext a; apply Fin.ext; fin_cases a <;> rfl) rfl rfl
  · exact tap_eq x0 x1 x2 x3 c h w 0 1 (by omega) (by omega) 1 _ _ _ _ _ _ _
      (by funext a; apply Fin.ext; fin_cases a <;> rfl) (by funext a; apply Fin.ext; fin_cases a <;> rfl)
      (by funext a; apply Fin.ext; fin_cases a <;> rfl) (by funext a; apply Fin.ext; fin_cases a <;> rfl)
      (by funext a; apply Fin.ext; fin_cases a <;> rfl) rfl rfl
  · exact tap_eq x0 x1 x2 x3 c h w 0 2 (by omega) (by omega) 2 _ _ _ _ _ _ _
      (by funext a; apply Fin.ext; fin_cases a <;> rfl) (by funext a; apply Fin.ext; fin_cases a <;> rfl)
      (by funext a; apply Fin.ext; fin_cases a <;> rfl) (by funext a; apply Fin.ext; fin_cases a <;> rfl)
      (by funext a; apply Fin.ext; fin_cases a <;> rfl) rfl rfl
  · exact tap_eq x0 x1 x2 x3 c h w 1 0 (by omega) (by omega) 3 _ _ _ _ _ _ _
      (by funext a; apply Fin.ext; fin_cases a <;> rfl) (by funext a; apply Fin.ext; fin_cases a <;> rfl)
      (by funext a; apply Fin.ext; fin_cases a <;> rfl) (by funext a; apply Fin.ext; fin_cases a <;> rfl)
      (by funext a; apply Fin.ext; fin_cases a <;> rfl) rfl rfl
  · exact tap_eq x0 x1 x2 x3 c h w 1 1 (by omega) (by omega) 4 _ _ _ _ _ _ _
      (by funext a; apply Fin.ext; fin_cases a <;> rfl) (by funext a; apply Fin.ext; fin_cases a <;> rfl)
      (by funext a; apply Fin.ext; fin_cases a <;> rfl) (by funext a; apply Fin.ext; fin_cases a <;> rfl)
      (by funext a; apply Fin.ext; fin_cases a <;> rfl) rfl rfl
  · exact tap_eq x0 x1 x2 x3 c h w 1 2 (by omega) (by omega) 5 _ _ _ _ _ _ _
      (by funext a; apply Fin.ext; fin_cases a <;> rfl) (by funext a; apply Fin.ext; fin_cases a <;> rfl)
      (by funext a; apply Fin.ext; fin_cases a <;> rfl) (by funext a; apply Fin.ext; fin_cases a <;> rfl)
      (by funext a; apply Fin.ext; fin_cases a <;> rfl) rfl rfl
  · exact tap_eq x0 x1 x2 x3 c h w 2 0 (by omega) (by omega) 6 _ _ _ _ _ _ _
      (by funext a; apply Fin.ext; fin_cases a <;> rfl) (by funext a; apply Fin.ext; fin_cases a <;> rfl)
      (by funext a; apply Fin.ext; fin_cases a <;> rfl) (by funext a; apply Fin.ext; fin_cases a <;> rfl)
      (by funext a; apply Fin.ext; fin_cases a <;> rfl) rfl rfl
  · exact tap_eq x0 x1 x2 x3 c h w 2 1 (by omega) (by omega) 7 _ _ _ _ _ _ _
      (by funext a; apply Fin.ext; fin_cases a <;> rfl) (by funext a; apply Fin.ext; fin_cases a <;> rfl)
      (by funext a; apply Fin.ext; fin_cases a <;> rfl) (by funext a; apply Fin.ext; fin_cases a <;> rfl)
      (by funext a; apply Fin.ext; fin_cases a <;> rfl) rfl rfl
  · exact tap_eq x0 x1 x2 x3 c h w 2 2 (by omega) (by omega) 8 _ _ _ _ _ _ _
      (by funext a; apply Fin.ext; fin_cases a <;> rfl) (by funext a; apply Fin.ext; fin_cases a <;> rfl)
      (by funext a; apply Fin.ext; fin_cases a <;> rfl) (by funext a; apply Fin.ext; fin_cases a <;> rfl)
      (by funext a; apply Fin.ext; fin_cases a <;> rfl) rfl rfl

end Cert.KernelIdeal.Block

end
-- ==== Proof.KernelArray.lean ====
/-
  From blocks to the array. The grid's 8 x 4 points each write one block of 48 planes; block `t` of the result is
  the specification read through the block, because every input window moves with the output window (the image at the
  same block, the taps and the two gate columns at the output's channel block), and the 32 blocks tile the array. So
  after the run the result array is the specification `G` of the four argument arrays.
-/
import proofs.«131179_j28527172780064_1_alg».proof.Proof.KernelBlock
import Idealize.ShloMosaic.Lib.StableHlo.Run

noncomputable section

namespace Cert.KernelIdeal.Block

open Cert.KernelIdeal Cert.KernelIdeal.Gen Cert.KernelIdeal.ValueP Cert.MaxPlus
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays and blocks by their literal types -/

/-- A [192, 1] column read as a vector of 192. -/
def colVec (a : S192x1.Idx → EReal) : SG.Idx → EReal := fun i => a (ix2 (i 0) 0)

abbrev xarr (c : Dev nD) : S8x192x128x128.Idx → EReal := V m c main_arg0
abbrev karr (c : Dev nD) : S192x9.Idx → EReal := V m c main_arg1
abbrev gwarr (c : Dev nD) : S192x1.Idx → EReal := V m c main_v0
abbrev gbarr (c : Dev nD) : S192x1.Idx → EReal := V m c main_v1

abbrev xblk (c : Dev nD) (t : Fin cfg0.N) : Vec Ideal S1x48x128x128 .f32 := iblk m c 0 t
abbrev kblk (c : Dev nD) (t : Fin cfg0.N) : Vec Ideal S48x9 .f32 := iblk m c 1 t
abbrev gwblk (c : Dev nD) (t : Fin cfg0.N) : Vec Ideal S48x1 .f32 := iblk m c 2 t
abbrev gbblk (c : Dev nD) (t : Fin cfg0.N) : Vec Ideal S48x1 .f32 := iblk m c 3 t

/-- The result array as the region's arrays give it. -/
def Garr (c : Dev nD) : S8x192x128x128.Idx → EReal :=
  G (xarr m c) (karr m c) (colVec (gwarr m c)) (colVec (gbarr m c))

/-! ## The index maps, decided over the 32 grid points -/

/-- The image window moves with the output window; the taps and the gate columns follow the output's channel block;
    the last two block indices are zero; and the block indices stay in their ranges. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_4.index t (2 : Fin 4) = 0 ∧ win0_4.index t (3 : Fin 4) = 0
    ∧ win0_1.index t (0 : Fin 2) = win0_4.index t (1 : Fin 4) ∧ win0_1.index t (1 : Fin 2) = 0
    ∧ win0_2.index t (0 : Fin 2) = win0_4.index t (1 : Fin 4) ∧ win0_2.index t (1 : Fin 2) = 0
    ∧ win0_3.index t (0 : Fin 2) = win0_4.index t (1 : Fin 4) ∧ win0_3.index t (1 : Fin 2) = 0
    ∧ win0_4.index t (0 : Fin 4) ≤ 7 ∧ win0_4.index t (1 : Fin 4) ≤ 3 :=
  (by decide +kernel : ∀ t : Fin grid0.N, _)

/-- Every block of the array is some point's. -/
theorem idx_onto : ∀ (q0 : Fin 8) (q1 : Fin 4), ∃ t : Fin cfg0.N, win0_4.index t = ![q0.val, q1.val, 0, 0] :=
  (by decide +kernel : ∀ (q0 : Fin 8) (q1 : Fin 4), ∃ t : Fin grid0.N, win0_4.index t = ![q0.val, q1.val, 0, 0])

/-! ## The input blocks, read off the arrays -/

/-- Plane `c'` of point `t`'s image block is plane `(B, 48 C + c')` of the image, `(B, C)` the output's block index. -/
theorem xblk_apply (c : Dev nD) (t : Fin cfg0.N) (c' : Fin 48) (p q : Fin 128) (B : Fin 8) (C : Fin 192)
    (hB : B.val = win0_4.index t (0 : Fin 4)) (hC : C.val = win0_4.index t (1 : Fin 4) * 48 + c'.val) :
    xblk m c t (ix4 0 c' p q) = xarr m c (ix4 B C p q) := by
  obtain ⟨e0, e1, e2, e3, -, -, -, -, -, -, -, -, -, -⟩ := idx_facts t
  show xarr m c (((cfg0.win 0).blk t).view.emb (ix4 0 c' p q)) = xarr m c (ix4 B C p q)
  refine congrArg (xarr m c) (funext fun a => Fin.ext ?_)
  match a with
  | ⟨0, _⟩ => show win0_0.index t (0 : Fin 4) * 1 + 1 * 0 = B.val; omega
  | ⟨1, _⟩ => show win0_0.index t (1 : Fin 4) * 48 + 1 * c'.val = C.val; omega
  | ⟨2, _⟩ => show win0_0.index t (2 : Fin 4) * 128 + 1 * p.val = p.val; omega
  | ⟨3, _⟩ => show win0_0.index t (3 : Fin 4) * 128 + 1 * q.val = q.val; omega

/-- Row `c'` of point `t`'s tap block is row `48 C + c'` of the taps. -/
theorem kblk_apply (c : Dev nD) (t : Fin cfg0.N) (c' : Fin 48) (s : Fin 9) (C : Fin 192)
    (hC : C.val = win0_4.index t (1 : Fin 4) * 48 + c'.val) :
    kblk m c t (ix2 c' s) = karr m c (ix2 C s) := by
  obtain ⟨-, -, -, -, -, -, e6, e7, -, -, -, -, -, -⟩ := idx_facts t
  show karr m c (((cfg0.win 1).blk t).view.emb (ix2 c' s)) = karr m c (ix2 C s)
  refine congrArg (karr m c) (funext fun a => Fin.ext ?_)
  match a with
  | ⟨0, _⟩ => show win0_1.index t (0 : Fin 2) * 48 + 1 * c'.val = C.val; omega
  | ⟨1, _⟩ => show win0_1.index t (1 : Fin 2) * 9 + 1 * s.val = s.val; omega

/-- Row `c'` of point `t`'s gate-weight block is row `48 C + c'` of the gate-weight column. -/
theorem gwblk_apply (c : Dev nD) (t : Fin cfg0.N) (c' : Fin 48) (C : Fin 192)
    (hC : C.val = win0_4.index t (1 : Fin 4) * 48 + c'.val) :
    gwblk m c t (ix2 c' 0) = gwarr m c (ix2 C 0) := by
  obtain ⟨-, -, -, -, -, -, -, -, e8, e9, -, -, -, -⟩ := idx_facts t
  show gwarr m c (((cfg0.win 2).blk t).view.emb (ix2 c' 0)) = gwarr m c (ix2 C 0)
  refine congrArg (gwarr m c) (funext fun a => Fin.ext ?_)
  match a with
  | ⟨0, _⟩ => show win0_2.index t (0 : Fin 2) * 48 + 1 * c'.val = C.val; omega
  | ⟨1, _⟩ => show win0_2.index t (1 : Fin 2) * 1 + 1 * 0 = 0; omega

/-- Row `c'` of point `t`'s gate-bias block is row `48 C + c'` of the gate-bias column. -/
theorem gbblk_apply (c : Dev nD) (t : Fin cfg0.N) (c' : Fin 48) (C : Fin 192)
    (hC : C.val = win0_4.index t (1 : Fin 4) * 48 + c'.val) :
    gbblk m c t (ix2 c' 0) = gbarr m c (ix2 C 0) := by
  obtain ⟨-, -, -, -, -, -, -, -, -, -, e10, e11, -, -⟩ := idx_facts t
  show gbarr m c (((cfg0.win 3).blk t).view.emb (ix2 c' 0)) = gbarr m c (ix2 C 0)
  refine congrArg (gbarr m c) (funext fun a => Fin.ext ?_)
  match a with
  | ⟨0, _⟩ => show win0_3.index t (0 : Fin 2) * 48 + 1 * c'.val = C.val; omega
  | ⟨1, _⟩ => show win0_3.index t (1 : Fin 2) * 1 + 1 * 0 = 0; omega

/-! ## What point `t` writes back -/

/-- WHAT POINT `t` WRITES BACK is block `t` of the result array `Garr`. -/
theorem flushed_eq (c : Dev nD) (t : Fin cfg0.N) :
    (dats m 0 c).flushed 4 t = ((cfg0.win 4).blk t).view.read (Elt Ideal) (Garr m c) := by
  rw [flushed4]
  obtain ⟨-, -, -, -, e4, e5, -, -, -, -, -, -, e12, e13⟩ := idx_facts t
  funext j
  obtain ⟨z, c', h, w, rfl⟩ : ∃ (z : Fin 1) (c' : Fin 48) (h w : Fin 128), j = ix4 z c' h w :=
    ⟨j 0, j 1, j 2, j 3, eq_ix4 j⟩
  obtain rfl : z = 0 := Fin.ext (by have := z.isLt; omega)
  have hc' := c'.isLt
  -- the array index under the block index
  have hemb : ((cfg0.win 4).blk t).view.emb (ix4 0 c' h w)
      = ix4 (⟨win0_4.index t (0 : Fin 4), by omega⟩ : Fin 8) (⟨win0_4.index t (1 : Fin 4) * 48 + c'.val, by omega⟩ : Fin 192) h w := by
    funext a; apply Fin.ext
    match a with
    | ⟨0, _⟩ => show win0_4.index t (0 : Fin 4) * 1 + 1 * 0 = win0_4.index t (0 : Fin 4); omega
    | ⟨1, _⟩ => show win0_4.index t (1 : Fin 4) * 48 + 1 * c'.val = win0_4.index t (1 : Fin 4) * 48 + c'.val; omega
    | ⟨2, _⟩ => show win0_4.index t (2 : Fin 4) * 128 + 1 * h.val = h.val; omega
    | ⟨3, _⟩ => show win0_4.index t (3 : Fin 4) * 128 + 1 * w.val = w.val; omega
  show out0_4 (xblk m c t) (kblk m c t) (gwblk m c t) (gbblk m c t) (ix4 0 c' h w)
    = Garr m c (((cfg0.win 4).blk t).view.emb (ix4 0 c' h w))
  rw [hemb, block_apply]
  unfold Garr
  rw [G_apply]
  have hp : (fun p q => xblk m c t (ix4 0 c' p q))
      = fun p q => xarr m c (ix4 (⟨win0_4.index t (0 : Fin 4), by omega⟩ : Fin 8)
          (⟨win0_4.index t (1 : Fin 4) * 48 + c'.val, by omega⟩ : Fin 192) p q) :=
    funext fun p => funext fun q => xblk_apply m c t c' p q _ _ rfl rfl
  have hk : (fun s => kblk m c t (ix2 c' s))
      = fun s => karr m c (ix2 (⟨win0_4.index t (1 : Fin 4) * 48 + c'.val, by omega⟩ : Fin 192) s) :=
    funext fun s => kblk_apply m c t c' s _ rfl
  rw [hp, hk,
    xblk_apply m c t c' h w (⟨win0_4.index t (0 : Fin 4), by omega⟩ : Fin 8)
      (⟨win0_4.index t (1 : Fin 4) * 48 + c'.val, by omega⟩ : Fin 192) rfl rfl,
    gwblk_apply m c t c' (⟨win0_4.index t (1 : Fin 4) * 48 + c'.val, by omega⟩ : Fin 192) rfl,
    gbblk_apply m c t c' (⟨win0_4.index t (1 : Fin 4) * 48 + c'.val, by omega⟩ : Fin 192) rfl]
  rfl

/-! ## The blocks tile the array -/

/-- An index of the array is in point `t`'s block iff each coordinate is in the block's range on its axis. -/
theorem mem_blk (t : Fin cfg0.N) (i : S8x192x128x128.Idx) :
    i ∈ ((cfg0.win 4).blk t).view.set ↔ ∀ a : Fin 4, win0_4.index t a * S1x48x128x128.size a ≤ (i a).val
      ∧ (i a).val < win0_4.index t a * S1x48x128x128.size a + S1x48x128x128.size a := by
  show i ∈ ((View.whole main_v2).slice (win0_4.rect t)).set ↔ _
  rw [View.set_slice_whole, Rect.mem_set_unit]
  exact Iff.rfl

/-- Every index of the array is in some point's block. -/
theorem cover (i : S8x192x128x128.Idx) :
    ∃ t : Fin cfg0.N, (cfg0.win 4).flush t = true ∧ i ∈ ((cfg0.win 4).blk t).view.set := by
  have hi0 : (i 0).val < 8 := (i 0).isLt
  have hi1 : (i 1).val < 192 := (i 1).isLt
  have hi2 : (i 2).val < 128 := (i 2).isLt
  have hi3 : (i 3).val < 128 := (i 3).isLt
  obtain ⟨t, ht⟩ := idx_onto ⟨(i 0).val, hi0⟩ ⟨(i 1).val / 48, by omega⟩
  have q0 : win0_4.index t (0 : Fin 4) = (i 0).val := congrFun ht 0
  have q1 : win0_4.index t (1 : Fin 4) = (i 1).val / 48 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 48 ≤ (i 1).val ∧ (i 1).val < win0_4.index t (1 : Fin 4) * 48 + 48; omega
  | ⟨2, _⟩ => show win0_4.index t (2 : Fin 4) * 128 ≤ (i 2).val ∧ (i 2).val < win0_4.index t (2 : Fin 4) * 128 + 128; omega
  | ⟨3, _⟩ => show win0_4.index t (3 : Fin 4) * 128 ≤ (i 3).val ∧ (i 3).val < win0_4.index t (3 : Fin 4) * 128 + 128; omega

/-- THE ARRAY after the run is `Garr`. -/
theorem final (c : Dev nD) : (dats m 0 c).arrAt 4 cfg0.N = Garr m c :=
  (dats m 0 c).arrAt_eq_of_cover 4 (Garr m c) (fun t _ => flushed_eq m c t) cover

/-! ## The region's arrays are the arguments -/

/-- The gate-weight column the region finds is the gate-weight argument, reshaped to [192, 1]. -/
theorem gwarr_eq (c : Dev nD) :
    gwarr m c = shapeCast S192x1 (m ((c : Thread nD τ).loc main_arg2)) shapeCasts_S192_S192x1 := by
  show (V m c main_v0 : S192x1.Idx → EReal) = _
  dsimp only [V, hostOps0]
  after_results
  rfl

/-- The gate-bias column the region finds is the gate-bias argument, reshaped to [192, 1]. -/
theorem gbarr_eq (c : Dev nD) :
    gbarr m c = shapeCast S192x1 (m ((c : Thread nD τ).loc main_arg3)) shapeCasts_S192_S192x1 := by
  show (V m c main_v1 : S192x1.Idx → EReal) = _
  dsimp only [V, hostOps0]
  after_results
  rfl

/-- A vector of 192 reshaped to a [192, 1] column and read back as a vector is the vector. -/
theorem colVec_shapeCast (g : S192.Idx → EReal) : colVec (shapeCast S192x1 g shapeCasts_S192_S192x1) = g := by
  funext i
  obtain ⟨a, rfl⟩ : ∃ a : Fin 192, i = ix1 a := ⟨i 0, eq_ix1 i⟩
  show shapeCast S192x1 g shapeCasts_S192_S192x1 (ix2 a 0) = g (ix1 a)
  refine shapeCast_apply _ _ (ix2 a 0) (ix1 a) ?_
  rw [Shape.rowMajor_val_one, Shape.rowMajor_val_two]
  show a.val = a.val * 1 + 0
  omega

/-- `Garr` is the specification of the four argument arrays as launched. -/
theorem Garr_eq (c : Dev nD) :
    Garr m c = G (m ((c : Thread nD τ).loc main_arg0)) (m ((c : Thread nD τ).loc main_arg1))
      (m ((c : Thread nD τ).loc main_arg2)) (m ((c : Thread nD τ).loc main_arg3)) := by
  unfold Garr
  rw [gwarr_eq, gbarr_eq, colVec_shapeCast, colVec_shapeCast]
  show G (V m c main_arg0) (V m c main_arg1) _ _ = _
  rw [V_main_arg0, V_main_arg1]

/-! ## The run, read -/

/-- Every weakly fair execution of the kernel's program terminates with the result array at the specification of the
    argument arrays, the arguments unchanged. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1.trans (final m c)).trans (Garr_eq m c), (h c).2⟩)
    (run_blocks m ρ)

end Cert.KernelIdeal.Block

end
-- ==== Proof.RefPadded.lean ====
/-
  The reference is the specification. Read one result element at a time: the host's maximum-reduce over the tap axis,
  taken from `-∞`, is the chain of the nine scores' maxima; tap `t`'s slice of the stacked patches is the zero-padded
  image read `t / 3` rows down and `t % 3` columns right; the host's `1 / (1 + e^(-z))` is the logistic function.
-/
import proofs.«131179_j28527172780064_1_alg».proof.Proof.Gen.ReferenceIdeal.Read
import proofs.«131179_j28527172780064_1_alg».proof.Proof.MaxPlusSpec
import Idealize.ShloMosaic.Lib.Pipeline.Value
import Idealize.ShloMosaic.Lib.ValueIdx
import Idealize.ShloMosaic.Lib.KernelVsHost
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Cert.MaxPlus
open Idealize.ShloMosaic Idealize.ShloMosaic.ValueIdx

/-! ## The padded image -/

/-- The padding value: the integer zero converted is the real zero. -/
theorem padValue (i : S_.Idx) : val_main_call0_v0 (F := Ideal) i = 0 := by
  show (((0#32 : BitVec 32).toInt : ℝ) : EReal) = 0
  simp

/-- The padded image at plane `(b, c)` and padded coordinates `(r, s)` is that plane framed by zeros. -/
theorem padded_apply (x0 : FVec Ideal S8x192x128x128 .f32) (b : Fin 8) (c : Fin 192) (r s : Fin 130) :
    val_main_v0 (F := Ideal) x0 (ix4 b c r s) = border (fun p q => x0 (ix4 b c p q)) r.val s.val := by
  have hr := r.isLt
  have hs := s.isLt
  unfold val_main_v0
  by_cases hin : (1 ≤ r.val ∧ r.val ≤ 128) ∧ (1 ≤ s.val ∧ s.val ≤ 128)
  · rw [border_inside _ _ _ ⟨r.val - 1, by omega⟩ ⟨s.val - 1, by omega⟩ (by show r.val = r.val - 1 + 1; omega)
      (by show s.val = s.val - 1 + 1; omega)]
    refine pad_apply_of_inside _ _ _ _ _ _ _ (ix4 b c r s) (ix4 b c ⟨r.val - 1, by omega⟩ ⟨s.val - 1, by omega⟩) ?_
    intro a
    match a with
    | ⟨0, _⟩ => show b.val = 0 + b.val * (0 + 1); omega
    | ⟨1, _⟩ => show c.val = 0 + c.val * (0 + 1); omega
    | ⟨2, _⟩ => show r.val = 1 + (r.val - 1) * (0 + 1); omega
    | ⟨3, _⟩ => show s.val = 1 + (s.val - 1) * (0 + 1); omega
  · rw [border_outside _ _ _ hin]
    by_cases hrm : 1 ≤ r.val ∧ r.val ≤ 128
    · have hsm : ¬(1 ≤ s.val ∧ s.val ≤ 128) := fun h => hin ⟨hrm, h⟩
      rw [pad_apply_of_not_inside _ _ _ _ _ _ _ (ix4 b c r s) (3 : Fin 4) (by
        show ¬(1 ≤ s.val ∧ (s.val - 1) % (0 + 1) = 0 ∧ (s.val - 1) / (0 + 1) < 128)
        intro h; apply hsm; omega)]
      exact padValue _
    · rw [pad_apply_of_not_inside _ _ _ _ _ _ _ (ix4 b c r s) (2 : Fin 4) (by
        show ¬(1 ≤ r.val ∧ (r.val - 1) % (0 + 1) = 0 ∧ (r.val - 1) / (0 + 1) < 128)
        intro h; apply hrm; omega)]
      exact padValue _

end Cert.ReferenceIdeal.RefValue

end
-- ==== Proof.RefValue.lean ====
/-
  The reference is the specification. Read one result element at a time: the host's maximum-reduce over the tap axis,
  taken from `-∞`, is the chain of the nine scores' maxima; tap `t`'s slab of the stacked patches is the zero-padded
  image read `t / 3` rows down and `t % 3` columns right of the pixel; and the host's `1 / (1 + e^(-z))` is the
  logistic function of `z`.
-/
import proofs.«131179_j28527172780064_1_alg».proof.Proof.RefPadded
import Idealize.ShloMosaic.PureOps.Reduce

noncomputable section

namespace Cert.ReferenceIdeal.RefValue

open Cert.ReferenceIdeal Cert.ReferenceIdeal.Gen Cert.ReferenceIdeal.Read Cert.MaxPlus
open Idealize.ShloMosaic Idealize.ShloMosaic.ValueIdx

/-! ## One slab of the stack: a shifted slice of the padded image, given a unit tap axis -/

/-- The slice of the padded image that starts `o2` rows down and `o3` columns right, with a unit axis inserted in third
    place, read at pixel `(b, c, h, w)`: the framed plane at `(h + o2, w + o3)`. -/
theorem slab_apply (o2 o3 : Nat) (ho2 : o2 ≤ 2) (ho3 : o3 ≤ 2)
    (hs : S8x192x130x130.Slices ![0, 0, o2, o3] S8x192x128x128)
    (hb : S8x192x128x128.BroadcastsInDim S8x192x1x128x128 ![0, 1, 3, 4])
    (x0 : FVec Ideal S8x192x128x128 .f32) (b : Fin 8) (c : Fin 192) (h w : Fin 128) :
    broadcastInDim S8x192x1x128x128 ![0, 1, 3, 4] hb
        (extractStridedSlice S8x192x128x128 ![0, 0, o2, o3] (val_main_v0 (F := Ideal) x0) hs) (ix5 b c 0 h w)
      = border (fun p q => x0 (ix4 b c p q)) (h.val + o2) (w.val + o3) := by
  have hh := h.isLt
  have hw := w.isLt
  rw [broadcastInDim_apply _ hb _ (ix5 b c 0 h w) (ix4 b c h w) (fun a => match a with
    | ⟨0, _⟩ => by show b.val = if (8 : Nat) = 1 then 0 else b.val; rw [if_neg (by decide)]
    | ⟨1, _⟩ => by show c.val = if (192 : Nat) = 1 then 0 else c.val; rw [if_neg (by decide)]
    | ⟨2, _⟩ => by show h.val = if (128 : Nat) = 1 then 0 else h.val; rw [if_neg (by decide)]
    | ⟨3, _⟩ => by show w.val = if (128 : Nat) = 1 then 0 else w.val; rw [if_neg (by decide)])]
  rw [extractStridedSlice_apply ![0, 0, o2, o3] _ hs (ix4 b c h w)
    (ix4 b c (⟨h.val + o2, by omega⟩ : Fin 130) (⟨w.val + o3, by omega⟩ : Fin 130)) (fun a => match a with
    | ⟨0, _⟩ => by show b.val = 0 + b.val; omega
    | ⟨1, _⟩ => by show c.val = 0 + c.val; omega
    | ⟨2, _⟩ => by show h.val + o2 = o2 + h.val; omega
    | ⟨3, _⟩ => by show w.val + o3 = o3 + w.val; omega)]
  exact padded_apply x0 b c _ _

/-! ## Nine unit slabs stacked along the tap axis -/

/-- Nine arrays with a unit third axis, joined along it, read at coordinate `t` of that axis: array `t`. -/
theorem stack9_apply {α : Type} (u : Fin 9 → (S8x192x1x128x128.Idx → α))
    (hc : Shape.Concatenates ([(⟨S8x192x1x128x128, u 0⟩ : (s : Shape) × (s.Idx → α)), ⟨S8x192x1x128x128, u 1⟩,
      ⟨S8x192x1x128x128, u 2⟩, ⟨S8x192x1x128x128, u 3⟩, ⟨S8x192x1x128x128, u 4⟩, ⟨S8x192x1x128x128, u 5⟩,
      ⟨S8x192x1x128x128, u 6⟩, ⟨S8x192x1x128x128, u 7⟩, ⟨S8x192x1x128x128, u 8⟩].map (·.1)) S8x192x9x128x128 2)
    (b : Fin 8) (c : Fin 192) (h w : Fin 128) (t : Fin 9) :
    concatenate S8x192x9x128x128 2 [⟨S8x192x1x128x128, u 0⟩, ⟨S8x192x1x128x128, u 1⟩, ⟨S8x192x1x128x128, u 2⟩,
      ⟨S8x192x1x128x128, u 3⟩, ⟨S8x192x1x128x128, u 4⟩, ⟨S8x192x1x128x128, u 5⟩, ⟨S8x192x1x128x128, u 6⟩,
      ⟨S8x192x1x128x128, u 7⟩, ⟨S8x192x1x128x128, u 8⟩] hc (ix5 b c t h w) = u t (ix5 b c 0 h w) := by
  refine concatenate_apply_piece 2 _ hc (ix5 b c t h w) t.val (by show t.val < 9; exact t.isLt) S8x192x1x128x128 (u t)
    ?_ rfl t.val ?_ (ix5 b c 0 h w) (fun a ha => ?_) (by show t.val + 0 = t.val; omega)
  · fin_cases t <;> rfl
  · fin_cases t <;> rfl
  · match a with
    | ⟨0, _⟩ => rfl
    | ⟨1, _⟩ => rfl
    | ⟨2, _⟩ => exact absurd rfl ha
    | ⟨3, _⟩ => rfl
    | ⟨4, _⟩ => rfl

/-- Tap `t`'s slab of the stacked patches at a pixel: the framed plane `t / 3` rows down and `t % 3` columns right. -/
theorem stack_apply (x0 : FVec Ideal S8x192x128x128 .f32) (b : Fin 8) (c : Fin 192) (h w : Fin 128) (t : Fin 9) :
    val_main_v19 (F := Ideal) x0 (ix5 b c t h w)
      = border (fun p q => x0 (ix4 b c p q)) (h.val + t.val / 3) (w.val + t.val % 3) := by
  unfold val_main_v19
  refine (stack9_apply ![val_main_v10 (F := Ideal) x0, val_main_v11 (F := Ideal) x0, val_main_v12 (F := Ideal) x0,
    val_main_v13 (F := Ideal) x0, val_main_v14 (F := Ideal) x0, val_main_v15 (F := Ideal) x0, val_main_v16 (F := Ideal) x0,
    val_main_v17 (F := Ideal) x0, val_main_v18 (F := Ideal) x0] _ b c h w t).trans ?_
  fin_cases t
  · exact slab_apply 0 0 (by omega) (by omega) slices_S8x192x130x130_S8x192x128x128_0_0_0_0
      bcast_S8x192x128x128_S8x192x1x128x128_0_1_3_4 x0 b c h w
  · exact slab_apply 0 1 (by omega) (by omega) slices_S8x192x130x130_S8x192x128x128_0_0_0_1
      bcast_S8x192x128x128_S8x192x1x128x128_0_1_3_4 x0 b c h w
  · exact slab_apply 0 2 (by omega) (by omega) slices_S8x192x130x130_S8x192x128x128_0_0_0_2
      bcast_S8x192x128x128_S8x192x1x128x128_0_1_3_4 x0 b c h w
  · exact slab_apply 1 0 (by omega) (by omega) slices_S8x192x130x130_S8x192x128x128_0_0_1_0
      bcast_S8x192x128x128_S8x192x1x128x128_0_1_3_4 x0 b c h w
  · exact slab_apply 1 1 (by omega) (by omega) slices_S8x192x130x130_S8x192x128x128_0_0_1_1
      bcast_S8x192x128x128_S8x192x1x128x128_0_1_3_4 x0 b c h w
  · exact slab_apply 1 2 (by omega) (by omega) slices_S8x192x130x130_S8x192x128x128_0_0_1_2
      bcast_S8x192x128x128_S8x192x1x128x128_0_1_3_4 x0 b c h w
  · exact slab_apply 2 0 (by omega) (by omega) slices_S8x192x130x130_S8x192x128x128_0_0_2_0
      bcast_S8x192x128x128_S8x192x1x128x128_0_1_3_4 x0 b c h w
  · exact slab_apply 2 1 (by omega) (by omega) slices_S8x192x130x130_S8x192x128x128_0_0_2_1
      bcast_S8x192x128x128_S8x192x1x128x128_0_1_3_4 x0 b c h w
  · exact slab_apply 2 2 (by omega) (by omega) slices_S8x192x130x130_S8x192x128x128_0_0_2_2
      bcast_S8x192x128x128_S8x192x1x128x128_0_1_3_4 x0 b c h w

/-! ## One tap's score -/

/-- The summand under the maximum, at tap `t` of a pixel: that tap's score. -/
theorem tap_apply (x0 : FVec Ideal S8x192x128x128 .f32) (x1 : FVec Ideal S192x9 .f32) (x2 x3 : FVec Ideal S192 .f32)
    (b : Fin 8) (c : Fin 192) (h w : Fin 128) (t : Fin 9) :
    val_main_v37 (F := Ideal) x0 x1 x2 x3 (ix5 b c t h w)
      = score (fun p q => x0 (ix4 b c p q)) (gate (x0 (ix4 b c h w)) (x2 (ix1 c)) (x3 (ix1 c))) (fun t => x1 (ix2 c t)) h w t := by
  have i1 : idx_main_v32 (idx_main_v34 (ix5 b c t h w)) = ix4 b c h w := by
    funext a; match a with | ⟨0, _⟩ => rfl | ⟨1, _⟩ => rfl | ⟨2, _⟩ => rfl | ⟨3, _⟩ => rfl
  have i2 : idx_main_v20 (idx_main_v21 (ix4 b c h w)) = ix1 c := by
    funext a; match a with | ⟨0, _⟩ => rfl
  have i3 : idx_main_v23 (idx_main_v24 (ix4 b c h w)) = ix1 c := by
    funext a; match a with | ⟨0, _⟩ => rfl
  have i4 : idx_main_v33 (idx_main_v35 (ix5 b c t h w)) = ix2 c t := by
    funext a; match a with | ⟨0, _⟩ => rfl | ⟨1, _⟩ => rfl
  have one : FloatOps.ofBits (F := Ideal) .f32 0x3F800000#32 = (1 : EReal) := Ideal.ofBits_one_f32
  rw [val_main_v37_apply, stack_apply]
  unfold score
  congr 1
  rw [val_main_v36_apply, val_main_v34_apply, val_main_v32_apply, i1, val_main_v31_apply, val_main_v30_apply,
    val_main_cst_0_apply, val_main_v29_apply, val_main_v28_apply, val_main_cst_apply, val_main_v27_apply,
    val_main_v26_apply, val_main_v25_apply, val_main_v22_apply, val_main_v21_apply, val_main_v20_apply, i2,
    val_main_v24_apply, val_main_v23_apply, i3, val_main_v35_apply, val_main_v33_apply, i4, one]
  rfl

/-! ## The maximum over the taps -/

/-- Putting tap coordinate `t` back into a pixel's index. -/
theorem lift_pixel (hR : S8x192x9x128x128.Reduces [2] S8x192x128x128) (b : Fin 8) (c : Fin 192) (h w : Fin 128)
    (t : Fin (S8x192x9x128x128.size 2)) : hR.lift (ix4 b c h w) t = ix5 b c (⟨t.val, t.isLt⟩ : Fin 9) h w := by
  funext a; apply Fin.ext
  fin_cases a <;> rfl

/-- THE REFERENCE'S RESULT is the specification `G` of the four argument arrays. -/
theorem ref_eq (x0 : FVec Ideal S8x192x128x128 .f32) (x1 : FVec Ideal S192x9 .f32) (x2 x3 : FVec Ideal S192 .f32) :
    val_main_v38 (F := Ideal) x0 x1 x2 x3 = G x0 x1 x2 x3 := by
  funext y
  obtain ⟨b, c, h, w, rfl⟩ : ∃ (b : Fin 8) (c : Fin 192) (h w : Fin 128), y = ix4 b c h w :=
    ⟨y 0, y 1, y 2, y 3, eq_ix4 y⟩
  have hR : S8x192x9x128x128.Reduces [2] S8x192x128x128 := by decide
  have hinit : val_main_cst_1 (F := Ideal) (Shape.Idx.first h_S_) = (⊥ : EReal) := by
    show Ideal.ofBits .f32 0xFF800000#32 = ⊥
    simp [Ideal.ofBits, Ideal.ieee]
  rw [G_apply]
  unfold val_main_v38
  rw [Host.reduce_eq_fold_single FloatOps.maximumf _ _ reducesTo_S8x192x9x128x128_S8x192x128x128_d2 hR h_S_, hinit]
  refine (fold_max_bot_fin9 _).trans ?_
  refine congrArg (chain9 max) (funext fun t => ?_)
  rw [Function.comp_apply, lift_pixel hR b c h w t]
  exact tap_apply x0 x1 x2 x3 b c h w t

end Cert.ReferenceIdeal.RefValue

end
-- ==== Proof.lean ====
/-
  The proof of `Cert.Claim`: a max-plus morphological 3 x 3 convolution with a per-channel logistic gate, one Pallas
  kernel over an 8 x 4 grid of 48-plane blocks against the jnp reference that pads, stacks nine shifted slices,
  gates and takes the maximum over the tap axis.

  Both idealized programs compute, at every pixel `(b, c, h, w)`, the maximum over the nine taps `t = 3 i + j` of
  `x̄[b, c, h + i, w + j] + σ(x[b, c, h, w] · gw[c] + gb[c]) · k[c, t]`, `x̄` the plane framed by zeros and
  `σ` the logistic function (Proof/MaxPlusSpec.lean's `G`). The kernel builds the frame by joining zero columns and
  rows to its block (Proof/FramedPlane.lean, Proof/KernelFramed.lean), takes the nine-fold maximum as a chain
  (Proof/KernelBlock.lean), and its 32 blocks tile the result (Proof/KernelArray.lean). The reference pads with the
  host's `pad`, stacks the nine shifted slices along a new axis, spells the logistic function as `1 / (1 + e^(-z))`,
  and reduces the tap axis by a maximum from `-∞`, which over nine values is the same chain (Proof/RefPadded.lean,
  Proof/RefValue.lean). No law of the reals beyond commutativity and associativity of the maximum is used, so the
  precondition is never opened. The idealization rewrote nothing, so `preserves` is trivial.
-/
import proofs.«131179_j28527172780064_1_alg».proof.Defs
import proofs.«131179_j28527172780064_1_alg».proof.Proof.Gen.Kernel
import proofs.«131179_j28527172780064_1_alg».proof.Proof.Gen.Kernel.Skeleton
import proofs.«131179_j28527172780064_1_alg».proof.Proof.Gen.Kernel.Launch
import proofs.«131179_j28527172780064_1_alg».proof.Proof.Gen.Kernel.Points
import proofs.«131179_j28527172780064_1_alg».proof.Proof.Gen.Kernel.Frame
import proofs.«131179_j28527172780064_1_alg».proof.Proof.Gen.KernelIdeal
import proofs.«131179_j28527172780064_1_alg».proof.Proof.Gen.KernelIdeal.Skeleton
import proofs.«131179_j28527172780064_1_alg».proof.Proof.Gen.KernelIdeal.Launch
import proofs.«131179_j28527172780064_1_alg».proof.Proof.Gen.KernelIdeal.Points
import proofs.«131179_j28527172780064_1_alg».proof.Proof.Gen.KernelIdeal.Frame
import proofs.«131179_j28527172780064_1_alg».proof.Proof.Gen.ReferenceIdeal
import proofs.«131179_j28527172780064_1_alg».proof.Proof.Gen.Pre_finite_inputs
import proofs.«131179_j28527172780064_1_alg».proof.Proof.Gen.ReferenceIdeal.Run
import proofs.«131179_j28527172780064_1_alg».proof.Proof.Gen.ReferenceIdeal.Read
import proofs.«131179_j28527172780064_1_alg».proof.Proof.KernelArray
import proofs.«131179_j28527172780064_1_alg».proof.Proof.RefValue
import Idealize.ShloMosaic.Adequacy
import Idealize.ShloMosaic.Init

noncomputable section

namespace Cert.Proof

open Idealize.ShloMosaic Idealize.SL.Sem Cert.Kernel

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the result array at the specification
    `G` of the kernel's arguments: the kernel by its blocks, the reference element by element. -/
theorem algebraic : Cert.algebraic_KernelIdeal_ReferenceIdeal := by
  intro m ρ m' ρ' _ hagree
  refine ⟨fun c => Cert.MaxPlus.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.RefValue.ref_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
